-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S50257 : Shape := ⟨1, ![50257]⟩
abbrev S_ : Shape := ⟨0, ![]⟩

class Facts : Prop where
  bcast_S_S50257 : S_.BroadcastsInDim S50257 (![] : Fin 0 → Fin S50257.rank)
  reducesTo_S50257_S_d0 : S50257.ReducesTo [0] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : IVec S512x256 32) (main_arg1 : FVec F S50257 .f32) : IVec S_ 1 :=
  let main_v0 : FVec F S50257 .f32 := Host.absf main_arg1
  let main_cst : FVec F S_ .f32 := constant S_ .f32 0x7F800000#32
  let main_v1 : FVec F S50257 .f32 := broadcastInDim S50257 ![] bcast_S_S50257 main_cst
  let main_v2 : IVec S50257 1 := cmpf .olt main_v0 main_v1
  let main_c : IVec S_ 1 := constantI S_ 1 1#1
  let main_v3 : IVec S_ 1 := (fun x v => Host.reduce IntOp.andi x v reducesTo_S50257_S_d0 h_S_) main_v2 main_c
  let main_c_0 : IVec S_ 32 := constantI S_ 32 0#32
  let main_v4 : IVec S512x256 32 := broadcastInDim S512x256 ![] bcast_S_S512x256 main_c_0
  let main_v5 : IVec S512x256 1 := cmpi .sge main_arg0 main_v4
  let main_c_1 : IVec S_ 1 := constantI S_ 1 1#1
  let main_v6 : IVec S_ 1 := (fun x v => Host.reduce IntOp.andi x v reducesTo_S512x256_S_d0_1 h_S_) main_v5 main_c_1
  let main_v7 : IVec S_ 1 := andi main_v3 main_v6
  main_v7
-- ==== Kernel.lean ====
abbrev S512x256 : Shape := ⟨2, ![512, 256]⟩
abbrev S50257 : Shape := ⟨1, ![50257]⟩
abbrev S_ : Shape := ⟨0, ![]⟩
abbrev S65536 : Shape := ⟨1, ![65536]⟩
abbrev S256x256 : Shape := ⟨2, ![256, 256]⟩
abbrev S1 : Shape := ⟨1, ![1]⟩
abbrev S2 : Shape := ⟨1, ![2]⟩
abbrev S512x50257 : Shape := ⟨2, ![512, 50257]⟩
abbrev S16x256 : Shape := ⟨2, ![16, 256]⟩
abbrev S16x50257 : Shape := ⟨2, ![16, 50257]⟩
abbrev S1x256x1 : Shape := ⟨3, ![1, 256, 1]⟩
abbrev S16x1x256 : Shape := ⟨3, ![16, 1, 256]⟩
abbrev S16x256x256 : Shape := ⟨3, ![16, 256, 256]⟩
abbrev S1x1x256 : Shape := ⟨3, ![1, 1, 256]⟩
abbrev S16x256x1 : Shape := ⟨3, ![16, 256, 1]⟩
abbrev S1x256x256 : Shape := ⟨3, ![1, 256, 256]⟩
abbrev S16x65536 : Shape := ⟨2, ![16, 65536]⟩

abbrev nBuf : Space → Nat
  | .hbm => 14
  | .vmem => 5
  | .smem => 0
  | _ => 0

abbrev bufTy : (tb : Table) → Fin (tcTables nBuf tb) → BufTy
  | .hbm, ⟨0, _⟩ => ⟨S512x256, .i32⟩
  | .hbm, ⟨1, _⟩ => ⟨S50257, .f32⟩
  | .hbm, ⟨2, _⟩ => ⟨S_, .i32⟩
  | .hbm, ⟨3, _⟩ => ⟨S_, .f32⟩
  | .hbm, ⟨4, _⟩ => ⟨S65536, .f32⟩
  | .hbm, ⟨5, _⟩ => ⟨S256x256, .f32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2, .i32⟩
  | .hbm, ⟨11, _⟩ => ⟨S_, .f32⟩
  | .hbm, ⟨12, _⟩ => ⟨S256x256, .f32⟩
  | .hbm, ⟨13, _⟩ => ⟨S512x50257, .f32⟩
  | .local _ .vmem, ⟨0, _⟩ => ⟨S16x256, .i32⟩
  | .local _ .vmem, ⟨1, _⟩ => ⟨S16x256, .i32⟩
  | .local _ .vmem, ⟨2, _⟩ => ⟨S256x256, .f32⟩
  | .local _ .vmem, ⟨3, _⟩ => ⟨S16x50257, .f32⟩
  | .local _ .vmem, ⟨4, _⟩ => ⟨S16x50257, .f32⟩
  | _, _ => ⟨S512x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x50257 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S50257_S65536_0152790 : S50257.Pads (![0] : Fin 1 → Nat) ![15279] ![0] S65536
  h_S_ : 0 < S_.numel
  shapeCasts_S65536_S256x256 : S65536.ShapeCasts S256x256
  bcast_S_S1 : S_.BroadcastsInDim S1 (![] : Fin 0 → Fin S1.rank)
  concatenates_S1_S1_S2_d0 : Shape.Concatenates [S1, S1] S2 0
  inb_S16x256_S16x256_0_0 : ∀ a, (![0, 0] : Fin 2 → Nat) a + S16x256.size a ≤ S16x256.size a
  h_S16x256 : 0 < S16x256.numel
  iota_S1x256x1_d1_w32 : S1x256x1.Iotas .tc 32 [1]
  shapeCasts_S16x256_S16x1x256 : S16x256.ShapeCasts S16x1x256
  broadcasts_S16x1x256_S16x256x256 : S16x1x256.Broadcasts S16x256x256
  broadcasts_S1x256x1_S16x256x256 : S1x256x1.Broadcasts S16x256x256
  natLt_1_32 : 1 < 32
  bitsLt_bf16_f32 : FTy.bits .bf16 < FTy.bits .f32
  iota_S1x1x256_d2_w32 : S1x1x256.Iotas .tc 32 [2]
  shapeCasts_S16x256_S16x256x1 : S16x256.ShapeCasts S16x256x1
  broadcasts_S16x256x1_S16x256x256 : S16x256x1.Broadcasts S16x256x256
  broadcasts_S1x1x256_S16x256x256 : S1x1x256.Broadcasts S16x256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256x256_S1x256x256 : S256x256.ShapeCasts S1x256x256
  broadcasts_S1x256x256_S16x256x256 : S1x256x256.Broadcasts S16x256x256
  shapeCasts_S16x256x256_S16x65536 : S16x256x256.ShapeCasts S16x65536
  slices_S16x65536_o0_0_S16x50257 : S16x65536.Slices ![0, 0] S16x50257
  inb_S16x50257_S16x50257_0_0 : ∀ a, (![0, 0] : Fin 2 → Nat) a + S16x50257.size a ≤ S16x50257.size a
  h_S16x50257 : 0 < S16x50257.numel
  scatter_S256x256_S2_S__n_01_01_0_wf : ScatterDims.WF S256x256 S2 S_ [] [0, 1] [0, 1] 0
  dot_S16x256x256_S16x256x256_S16x256x256_2_1_1_2_0_0_wf : DotDims.WF S16x256x256 S16x256x256 S16x256x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S512x256.size a
  hwx0_0 : ∀ i : grid0.Coords, EltTy.bits .i32 = 32 ∨ (Rect.block (s := S512x256) S16x256.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x50257.size a ≤ S512x50257.size a
  hwx0_2 : ∀ i : grid0.Coords, EltTy.bits .f32 = 32 ∨ (Rect.block (s := S512x50257) S16x50257.size (cc0_transform_2 i) (hinb0_2 i)).WholeWords (EltTy.packing .f32)

variable [Facts₀]

def scatter_S256x256_S2_S__n_01_01_0 : ScatterDims S256x256 S2 S_ where
  updateWindowDims := []
  insertedWindowDims := [0, 1]
  scatterDimsToOperandDims := [0, 1]
  indexVectorDim := 0
  wf := scatter_S256x256_S2_S__n_01_01_0_wf
def dot_S16x256x256_S16x256x256_S16x256x256_2_1_1_2_0_0 : DotDims S16x256x256 S16x256x256 S16x256x256 where
  lhsContracting := [2]
  rhsContracting := [1]
  lhsNonContracting := [1]
  rhsNonContracting := [2]
  lhsBatch := [0]
  rhsBatch := [0]
  wf := dot_S16x256x256_S16x256x256_S16x256x256_2_1_1_2_0_0_wf

abbrev win0_0 : Pipeline.Window sig grid0 :=
  Pipeline.Window.ofSpec (Memref.whole main_arg0) S16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S16x50257.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x256 : Shape := ⟨2, ![512, 256]⟩
abbrev S50257 : Shape := ⟨1, ![50257]⟩
abbrev S512 : Shape := ⟨1, ![512]⟩
abbrev S512x1 : Shape := ⟨2, ![512, 1]⟩
abbrev S_ : Shape := ⟨0, ![]⟩
abbrev S512x50257 : Shape := ⟨2, ![512, 50257]⟩
abbrev S512x256x1 : Shape := ⟨3, ![512, 256, 1]⟩
abbrev S512x256x2 : Shape := ⟨3, ![512, 256, 2]⟩
abbrev S1 : Shape := ⟨1, ![1]⟩
abbrev S1x50257 : Shape := ⟨2, ![1, 50257]⟩

abbrev nBuf : Space → Nat
  | .hbm => 35
  | .vmem => 0
  | .smem => 0
  | _ => 0

abbrev bufTy : (tb : Table) → Fin (tcTables nBuf tb) → BufTy
  | .hbm, ⟨0, _⟩ => ⟨S512x256, .i32⟩
  | .hbm, ⟨1, _⟩ => ⟨S50257, .f32⟩
  | .hbm, ⟨2, _⟩ => ⟨S512, .i32⟩
  | .hbm, ⟨3, _⟩ => ⟨S512x1, .i32⟩
  | .hbm, ⟨4, _⟩ => ⟨S_, .f32⟩
  | .hbm, ⟨5, _⟩ => ⟨S512x50257, .f32⟩
  | .hbm, ⟨6, _⟩ => ⟨S_, .i32⟩
  | .hbm, ⟨7, _⟩ => ⟨S512x1, .i32⟩
  | .hbm, ⟨8, _⟩ => ⟨S512x1, .i1⟩
  | .hbm, ⟨9, _⟩ => ⟨S_, .i32⟩
  | .hbm, ⟨10, _⟩ => ⟨S512x1, .i32⟩
  | .hbm, ⟨11, _⟩ => ⟨S512x1, .i32⟩
  | .hbm, ⟨12, _⟩ => ⟨S512x1, .i32⟩
  | .hbm, ⟨13, _⟩ => ⟨S_, .i32⟩
  | .hbm, ⟨14, _⟩ => ⟨S512x256, .i32⟩
  | .hbm, ⟨15, _⟩ => ⟨S512x256, .i1⟩
  | .hbm, ⟨16, _⟩ => ⟨S_, .i32⟩
  | .hbm, ⟨17, _⟩ => ⟨S512x256, .i32⟩
  | .hbm, ⟨18, _⟩ => ⟨S512x256, .i32⟩
  | .hbm, ⟨19, _⟩ => ⟨S512x256, .i32⟩
  | .hbm, ⟨20, _⟩ => ⟨S512x256, .i32⟩
  | .hbm, ⟨21, _⟩ => ⟨S512x256x1, .i32⟩
  | .hbm, ⟨22, _⟩ => ⟨S512x256x1, .i32⟩
  | .hbm, ⟨23, _⟩ => ⟨S512x256x2, .i32⟩
  | .hbm, ⟨24, _⟩ => ⟨S_, .f32⟩
  | .hbm, ⟨25, _⟩ => ⟨S512x256, .f32⟩
  | .hbm, ⟨26, _⟩ => ⟨S512x50257, .f32⟩
  | .hbm, ⟨27, _⟩ => ⟨S_, .i32⟩
  | .hbm, ⟨28, _⟩ => ⟨S1, .i32⟩
  | .hbm, ⟨29, _⟩ => ⟨S_, .f32⟩
  | .hbm, ⟨30, _⟩ => ⟨S512, .f32⟩
  | .hbm, ⟨31, _⟩ => ⟨S512x50257, .f32⟩
  | .hbm, ⟨32, _⟩ => ⟨S1x50257, .f32⟩
  | .hbm, ⟨33, _⟩ => ⟨S512x50257, .f32⟩
  | .hbm, ⟨34, _⟩ => ⟨S512x50257, .f32⟩
  | _, _ => ⟨S512x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S_S512x50257 : S_.BroadcastsInDim S512x50257 (![] : Fin 0 → Fin S512x50257.rank)
  bcast_S_S512x1 : S_.BroadcastsInDim S512x1 (![] : Fin 0 → Fin S512x1.rank)
  bcast_S_S512x256 : S_.BroadcastsInDim S512x256 (![] : Fin 0 → Fin S512x256.rank)
  bcast_S512x1_S512x256_0_1 : S512x1.BroadcastsInDim S512x256 (![0, 1] : Fin 2 → Fin S512x256.rank)
  bcast_S512x256_S512x256x1_0_1 : S512x256.BroadcastsInDim S512x256x1 (![0, 1] : Fin 2 → Fin S512x256x1.rank)
  concatenates_S512x256x1_S512x256x1_S512x256x2_d2 : Shape.Concatenates [S512x256x1, S512x256x1] S512x256x2 2
  bcast_S_S1 : S_.BroadcastsInDim S1 (![] : Fin 0 → Fin S1.rank)
  bcast_S_S512 : S_.BroadcastsInDim S512 (![] : Fin 0 → Fin S512.rank)
  bcast_S50257_S1x50257_1 : S50257.BroadcastsInDim S1x50257 (![1] : Fin 1 → Fin S1x50257.rank)
  bcast_S1x50257_S512x50257_0_1 : S1x50257.BroadcastsInDim S512x50257 (![0, 1] : Fin 2 → Fin S512x50257.rank)
  scatter_S512x50257_S512x256x2_S512x256_n_01_01_2_wf : ScatterDims.WF S512x50257 S512x256x2 S512x256 [] [0, 1] [0, 1] 2
  scatter_S512x50257_S1_S512_0_1_1_0_wf : ScatterDims.WF S512x50257 S1 S512 [0] [1] [1] 0

variable [Facts₀]

def scatter_S512x50257_S512x256x2_S512x256_n_01_01_2 : ScatterDims S512x50257 S512x256x2 S512x256 where
  updateWindowDims := []
  insertedWindowDims := [0, 1]
  scatterDimsToOperandDims := [0, 1]
  indexVectorDim := 2
  wf := scatter_S512x50257_S512x256x2_S512x256_n_01_01_2_wf
def scatter_S512x50257_S1_S512_0_1_1_0 : ScatterDims S512x50257 S1 S512 where
  updateWindowDims := [0]
  insertedWindowDims := [1]
  scatterDimsToOperandDims := [1]
  indexVectorDim := 0
  wf := scatter_S512x50257_S1_S512_0_1_1_0_wf

class Facts : Prop extends Facts₀ where

variable [Facts]
-- ==== Proof.Spec.lean ====
/-
  The function both programs compute. `ids` is a 512 × 256 table of token ids (32-bit words), `w` a vector of 50257
  weights. Entry (b, v) of the result is the weight of token `v` when `v` occurs somewhere in row `b` of the table
  and `v` is not the padding token 1, and zero otherwise.
-/
import Idealize.ShloMosaic.PureOps.Ideal
import Idealize.ShloMosaic.Lib.ValueIdx

noncomputable section

namespace Cert.Spec

open Idealize.ShloMosaic Idealize.ShloMosaic.ValueIdx

abbrev SIds : Shape := ⟨2, ![512, 256]⟩
abbrev SW : Shape := ⟨1, ![50257]⟩
abbrev SOut : Shape := ⟨2, ![512, 50257]⟩

/-- Token `v` occurs somewhere in row `b` of the id table. -/
def Occurs (ids : IVec SIds 32) (b : Fin 512) (v : Fin 50257) : Prop :=
  ∃ s : Fin 256, ids (ix2 b s) = BitVec.ofNat 32 v.val

open Classical in
/-- The result array: the weight of `v` where `v` occurs in row `b` and is not the padding token, else zero. -/
def G (ids : IVec SIds 32) (w : FVec Ideal SW .f32) : FVec Ideal SOut .f32 :=
  fun i => if Occurs ids (i 0) (i 1) ∧ (i 1).val ≠ 1 then w (ix1 (i 1)) else (0 : EReal)

theorem G_pos (ids : IVec SIds 32) (w : FVec Ideal SW .f32) (b : Fin 512) (v : Fin 50257)
    (h : Occurs ids b v) (hv : v.val ≠ 1) : G ids w (ix2 b v) = w (ix1 v) := by
  unfold G
  exact if_pos ⟨h, hv⟩

theorem G_neg (ids : IVec SIds 32) (w : FVec Ideal SW .f32) (b : Fin 512) (v : Fin 50257)
    (h : ¬(Occurs ids b v ∧ v.val ≠ 1)) : G ids w (ix2 b v) = (0 : EReal) := by
  unfold G
  exact if_neg h

end Cert.Spec

end
-- ==== Proof.PreFacts.lean ====
/-
  What the precondition says of the id table: its second conjunct is `jnp.all(ids >= 0)`, a reduce by `and` of the
  signed comparisons of every id against zero, so when the predicate is all ones every id is non-negative as a signed
  32-bit word. (The first conjunct, finiteness of the weights, is not needed: the two programs agree on every
  extended-real weight.)
-/
import proofs.«411009_j1185410973872_3_alg».proof.Proof.Gen.Pre_finite_inputs
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx Cert.Pre_finite_inputs

instance : Subsingleton S_.Idx := ⟨fun a b => funext fun d => d.elim0⟩

/-- All ones of the printed precondition: no id of the table is negative. -/
theorem ids_nonneg {F : FTy → Type} [FloatOps F] (ids : IVec S512x256 32) (w : FVec F S50257 .f32)
    (h : Cert.Pre_finite_inputs.fn (F := F) ids w = (fun _ => 1#1)) (i : S512x256.Idx) : 0 ≤ (ids i).toInt := by
  have h0 := congrFun h ix0
  dsimp only [Cert.Pre_finite_inputs.fn] at h0
  have h1 := (IntOp.andi_eq_one.1 h0).2
  have h2 := Host.reduce_andi_all _ _ _ _ _ h1 i
  have h3 := IntOp.cmpi_sge.1 h2
  have e : (broadcastInDim S512x256 ![] Facts.bcast_S_S512x256 (constantI S_ 32 0#32) i).toInt = 0 := by
    rw [StableHlo.Predicate.bcast_scalar _ Facts.h_S_]
    rfl
  rw [e] at h3
  exact h3

end Cert.PreFacts

end
-- ==== Proof.KernelPayload.lean ====
/-
  The kernel body's stored value at one entry (p, q) of its 16 × 50257 block: the indicator that token q occurs in
  row p of the id block, times entry (q / 256, q mod 256) of the 256 × 256 weight table.
-/
import proofs.«411009_j1185410973872_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ## Words: the two base-256 digits of a token id -/

/-- The high part of a word: its signed value divided by 256 (rounded down). -/
theorem shrsi8_toInt (x : BitVec 32) : (IntOp.shrsi .vector x 8#32).toInt = x.toInt / 256 := by
  unfold IntOp.shrsi
  rw [if_pos (by decide), BitVec.toInt_sshiftRight', Int.shiftRight_eq_div_pow]
  rfl

/-- The low part of a word: its unsigned value modulo 256. -/
theorem andi255_toNat (x : BitVec 32) : (IntOp.andi x 255#32).toNat = x.toNat % 256 := by
  unfold IntOp.andi
  rw [BitVec.toNat_and]
  exact Nat.and_two_pow_sub_one_eq_mod x.toNat 8

/-- A number below 2³¹ is the signed value of its word. -/
theorem toInt_ofNat_small (n : Nat) (hn : n < 2 ^ 31) : (BitVec.ofNat 32 n).toInt = n := by
  rw [BitVec.toInt_ofNat', Int.bmod_def]
  omega

/-- A word has high part `h` and low part `l`, both digits below 256, exactly when it is the number `256 h + l`:
    a negative word has a negative high part and a word from 65536 on a high part from 256 on, neither a digit. -/
theorem digits_iff (x : BitVec 32) (h l : Nat) (hh : h < 256) (hl : l < 256) :
    (IntOp.shrsi .vector x 8#32 = BitVec.ofNat 32 h ∧ IntOp.andi x 255#32 = BitVec.ofNat 32 l)
      ↔ x = BitVec.ofNat 32 (256 * h + l) := by
  have hI := BitVec.toInt_eq_toNat_cond x
  have hx := x.isLt
  constructor
  · rintro ⟨e1, e2⟩
    have a1 := congrArg BitVec.toInt e1
    have a2 := congrArg BitVec.toNat e2
    rw [shrsi8_toInt, toInt_ofNat_small h (by omega)] at a1
    rw [andi255_toNat, BitVec.toNat_ofNat] at a2
    apply BitVec.eq_of_toNat_eq
    rw [BitVec.toNat_ofNat]
    split at hI <;> omega
  · intro e
    have t : x.toNat = 256 * h + l := by
      rw [e, BitVec.toNat_ofNat]; omega
    constructor
    · apply BitVec.eq_of_toInt_eq
      rw [shrsi8_toInt, toInt_ofNat_small h (by omega)]
      split at hI <;> omega
    · apply BitVec.eq_of_toNat_eq
      rw [andi255_toNat, t, BitVec.toNat_ofNat]
      omega

/-! ## Indicators: comparisons as the extended reals 1 and 0 -/

/-- A one-bit word widened to 32 bits and read as a signed number is 1 or 0. -/
theorem bit_toInt (c : Bool) : (BitVec.setWidth 32 (BitVec.ofBool c)).toInt = if c then 1 else 0 := by
  cases c <;> rfl

/-- The float of a widened one-bit word is the extended real 1 or 0. -/
theorem bit_float (c : Bool) :
    (FloatOps.sitofp (F := Ideal) .f32 (BitVec.setWidth 32 (BitVec.ofBool c)) : EReal) = if c then 1 else 0 := by
  show (((BitVec.setWidth 32 (BitVec.ofBool c)).toInt : ℝ) : EReal) = _
  rw [bit_toInt]
  cases c <;> simp

/-- The float of a widened equality test of two words: 1 when they are equal, else 0. -/
theorem eq_ind (a b : BitVec 32) :
    (FloatOps.sitofp (F := Ideal) .f32 (BitVec.setWidth 32 (IntOp.cmpi .eq a b)) : EReal) = if a = b then 1 else 0 := by
  show (FloatOps.sitofp (F := Ideal) .f32 (BitVec.setWidth 32 (BitVec.ofBool (a == b))) : EReal) = _
  rw [bit_float]
  by_cases h : a = b
  · simp [h]
  · simp [h]

/-- The float of a widened test "greater than the zero word's float": 1 when the extended real is positive, else 0. -/
theorem pos_ind (x : EReal) :
    (FloatOps.sitofp (F := Ideal) .f32
        (BitVec.setWidth 32 (FloatOps.cmpf (F := Ideal) (φ := .f32) .ogt x (FloatOps.ofBits (F := Ideal) .f32 0#32))) : EReal)
      = if 0 < x then 1 else 0 := by
  show (FloatOps.sitofp (F := Ideal) .f32 (BitVec.setWidth 32 (BitVec.ofBool (decide (Ideal.ofBits .f32 0x00000000#32 < x)))) : EReal) = _
  rw [bit_float, Ideal.ofBits_zero_f32]
  by_cases h : 0 < x
  · simp [h]
  · simp [h]

/-- A sum of products of two 0/1 indicators is positive exactly when some index has both. -/
theorem sum_ind_pos {n : Nat} (A B : Fin n → Prop) [DecidablePred A] [DecidablePred B] :
    0 < (∑ s : Fin n, (if A s then (1 : EReal) else 0) * (if B s then (1 : EReal) else 0)) ↔ ∃ s, A s ∧ B s := by
  have e : ∀ s : Fin n, (if A s then (1 : EReal) else 0) * (if B s then (1 : EReal) else 0) = if A s ∧ B s then 1 else 0 := by
    intro s
    by_cases ha : A s <;> by_cases hb : B s <;> simp [ha, hb]
  rw [Finset.sum_congr rfl (fun s _ => e s), Finset.sum_pos_iff_of_nonneg]
  · constructor
    · rintro ⟨s, _, hs⟩
      by_cases h : A s ∧ B s
      · exact ⟨s, h⟩
      · rw [if_neg h] at hs; exact absurd hs (lt_irrefl _)
    · rintro ⟨s, h⟩
      exact ⟨s, Finset.mem_univ _, by rw [if_pos h]; exact zero_lt_one⟩
  · intro s _
    by_cases h : A s ∧ B s
    · rw [if_pos h]; exact zero_le_one
    · rw [if_neg h]

/-! ## The layout operations of the body, read at an index -/

section Layout
variable {α : Type}

/-- A 16 × 256 array viewed 16 × 1 × 256 and repeated along the middle axis: entry (p, h, s) is the array's (p, s). -/
theorem rowsOverMiddle_apply (X : S16x256.Idx → α) (p : Fin 16) (h s : Fin 256) :
    broadcastTo S16x256x256 (shapeCast S16x1x256 X shapeCasts_S16x256_S16x1x256) broadcasts_S16x1x256_S16x256x256 (ix3 p h s)
      = X (ix2 p s) := by
  refine (broadcastTo_apply _ _ (ix3 p h s) (ix3 p (0 : Fin 1) s) fun a => ?_).trans ?_
  · match a with
    | ⟨0, _⟩ => rfl
    | ⟨1, _⟩ => rfl
    | ⟨2, _⟩ => rfl
  · refine shapeCast_apply X _ _ _ ?_
    rw [Shape.rowMajor_val_two, Shape.rowMajor_val_three]
    show p.val * 256 + s.val = (p.val * 1 + 0) * 256 + s.val
    omega

/-- A 16 × 256 array viewed 16 × 256 × 1 and repeated along the last axis: entry (p, s, l) is the array's (p, s). -/
theorem rowsOverLast_apply (X : S16x256.Idx → α) (p : Fin 16) (s l : Fin 256) :
    broadcastTo S16x256x256 (shapeCast S16x256x1 X shapeCasts_S16x256_S16x256x1) broadcasts_S16x256x1_S16x256x256 (ix3 p s l)
      = X (ix2 p s) := by
  refine (broadcastTo_apply _ _ (ix3 p s l) (ix3 p s (0 : Fin 1)) fun a => ?_).trans ?_
  · match a with
    | ⟨0, _⟩ => rfl
    | ⟨1, _⟩ => rfl
    | ⟨2, _⟩ => rfl
  · refine shapeCast_apply X _ _ _ ?_
    rw [Shape.rowMajor_val_two, Shape.rowMajor_val_three]
    show p.val * 256 + s.val = (p.val * 256 + s.val) * 1 + 0
    omega

/-- The counter along the middle axis, repeated over the other two: entry (p, h, s) is the word h. -/
theorem middleCounter_apply (p : Fin 16) (h s : Fin 256) :
    broadcastTo S16x256x256 (iota .tc S1x256x1 32 [1] iota_S1x256x1_d1_w32) broadcasts_S1x256x1_S16x256x256 (ix3 p h s)
      = BitVec.ofNat 32 h.val := by
  refine (broadcastTo_apply _ _ (ix3 p h s) (ix3 (0 : Fin 1) h (0 : Fin 1)) fun a => ?_).trans ?_
  · match a with
    | ⟨0, _⟩ => rfl
    | ⟨1, _⟩ => rfl
    | ⟨2, _⟩ => rfl
  · exact iota_single_apply .tc S1x256x1 32 1 iota_S1x256x1_d1_w32 _

/-- The counter along the last axis, repeated over the other two: entry (p, s, l) is the word l. -/
theorem lastCounter_apply (p : Fin 16) (s l : Fin 256) :
    broadcastTo S16x256x256 (iota .tc S1x1x256 32 [2] iota_S1x1x256_d2_w32) broadcasts_S1x1x256_S16x256x256 (ix3 p s l)
      = BitVec.ofNat 32 l.val := by
  refine (broadcastTo_apply _ _ (ix3 p s l) (ix3 (0 : Fin 1) (0 : Fin 1) l) fun a => ?_).trans ?_
  · match a with
    | ⟨0, _⟩ => rfl
    | ⟨1, _⟩ => rfl
    | ⟨2, _⟩ => rfl
  · exact iota_single_apply .tc S1x1x256 32 2 iota_S1x1x256_d2_w32 _

/-- The 256 × 256 table viewed 1 × 256 × 256 and repeated over the rows: entry (p, h, l) is the table's (h, l). -/
theorem tableOverRows_apply (X : S256x256.Idx → α) (p : Fin 16) (h l : Fin 256) :
    broadcastTo S16x256x256
        (shapeCast S1x256x256 (shapeCast S256x256 X shapeCasts_S256x256_S256x256) shapeCasts_S256x256_S1x256x256)
        broadcasts_S1x256x256_S16x256x256 (ix3 p h l)
      = X (ix2 h l) := by
  refine (broadcastTo_apply _ _ (ix3 p h l) (ix3 (0 : Fin 1) h l) fun a => ?_).trans ?_
  · match a with
    | ⟨0, _⟩ => rfl
    | ⟨1, _⟩ => rfl
    | ⟨2, _⟩ => rfl
  · rw [shapeCast_self]
    exact shapeCast_ab_1ab_apply X _ _ _ _

/-- The 16 × 256 × 256 array flattened to 16 × 65536 and cut to its first 50257 columns: entry (p, q) is the array's
    (p, q / 256, q mod 256), the base-256 digits of q. -/
theorem flatCut_apply (V : S16x256x256.Idx → α) (p : Fin 16) (q : Fin 50257) :
    extractStridedSlice S16x50257 ![0, 0] (shapeCast S16x65536 V shapeCasts_S16x256x256_S16x65536)
        slices_S16x65536_o0_0_S16x50257 (ix2 p q)
      = V (ix3 p (⟨q.val / 256, by have := q.isLt; omega⟩ : Fin 256) (⟨q.val % 256, Nat.mod_lt _ (by decide)⟩ : Fin 256)) := by
  refine (extractStridedSlice_apply _ _ _ (ix2 p q) (ix2 p (⟨q.val, by have := q.isLt; omega⟩ : Fin 65536)) fun a => ?_).trans ?_
  · match a with
    | ⟨0, _⟩ => show p.val = 0 + p.val; omega
    | ⟨1, _⟩ => show q.val = 0 + q.val; omega
  · refine shapeCast_apply V _ _ _ ?_
    rw [Shape.rowMajor_val_two, Shape.rowMajor_val_three]
    show (p.val * 256 + q.val / 256) * 256 + q.val % 256 = p.val * 65536 + q.val
    omega

end Layout

/-! ## The batched contraction: rows p, contraction over the position s -/

/-- The left operand's row axis reads the result's row coordinate. -/
theorem lhs_Dhl_0 (i : S16x256x256.Idx) (k : dot_S16x256x256_S16x256x256_S16x256x256_2_1_1_2_0_0.contr.Idx) :
    (dot_S16x256x256_S16x256x256_S16x256x256_2_1_1_2_0_0.lhsIdx i k 0).val = (i 0).val := by
  unfold DotDims.lhsIdx
  rw [dif_pos (show (0 : Fin S16x256x256.rank) ∈ dot_S16x256x256_S16x256x256_S16x256x256_2_1_1_2_0_0.lhsBatch by decide)]
  rfl

/-- The left operand's middle axis reads the result's middle coordinate (the high digit). -/
theorem lhs_Dhl_1 (i : S16x256x256.Idx) (k : dot_S16x256x256_S16x256x256_S16x256x256_2_1_1_2_0_0.contr.Idx) :
    (dot_S16x256x256_S16x256x256_S16x256x256_2_1_1_2_0_0.lhsIdx i k 1).val = (i 1).val := by
  unfold DotDims.lhsIdx
  rw [dif_neg (show ¬(1 : Fin S16x256x256.rank) ∈ dot_S16x256x256_S16x256x256_S16x256x256_2_1_1_2_0_0.lhsBatch by decide),
    dif_pos (show (1 : Fin S16x256x256.rank) ∈ dot_S16x256x256_S16x256x256_S16x256x256_2_1_1_2_0_0.lhsNonContracting by decide)]
  rfl

/-- The left operand's last axis is the contracted one: it reads the contraction position. -/
theorem lhs_Dhl_2 (i : S16x256x256.Idx) (k : dot_S16x256x256_S16x256x256_S16x256x256_2_1_1_2_0_0.contr.Idx) :
    (dot_S16x256x256_S16x256x256_S16x256x256_2_1_1_2_0_0.lhsIdx i k 2).val = (k ⟨0, by decide⟩).val :=
  dot_S16x256x256_S16x256x256_S16x256x256_2_1_1_2_0_0.lhsIdx_val_of_single rfl i k

/-- The right operand's row axis reads the result's row coordinate. -/
theorem rhs_Dhl_0 (i : S16x256x256.Idx) (k : dot_S16x256x256_S16x256x256_S16x256x256_2_1_1_2_0_0.contr.Idx) :
    (dot_S16x256x256_S16x256x256_S16x256x256_2_1_1_2_0_0.rhsIdx i k 0).val = (i 0).val := by
  unfold DotDims.rhsIdx
  rw [dif_pos (show (0 : Fin S16x256x256.rank) ∈ dot_S16x256x256_S16x256x256_S16x256x256_2_1_1_2_0_0.rhsBatch by decide)]
  rfl

/-- The right operand's middle axis is the contracted one: it reads the contraction position. -/
theorem rhs_Dhl_1 (i : S16x256x256.Idx) (k : dot_S16x256x256_S16x256x256_S16x256x256_2_1_1_2_0_0.contr.Idx) :
    (dot_S16x256x256_S16x256x256_S16x256x256_2_1_1_2_0_0.rhsIdx i k 1).val = (k ⟨0, by decide⟩).val :=
  dot_S16x256x256_S16x256x256_S16x256x256_2_1_1_2_0_0.rhsIdx_val_of_single rfl i k

/-- The right operand's last axis reads the result's last coordinate (the low digit). -/
theorem rhs_Dhl_2 (i : S16x256x256.Idx) (k : dot_S16x256x256_S16x256x256_S16x256x256_2_1_1_2_0_0.contr.Idx) :
    (dot_S16x256x256_S16x256x256_S16x256x256_2_1_1_2_0_0.rhsIdx i k 2).val = (i 2).val := by
  unfold DotDims.rhsIdx
  rw [dif_neg (show ¬(2 : Fin S16x256x256.rank) ∈ dot_S16x256x256_S16x256x256_S16x256x256_2_1_1_2_0_0.rhsBatch by decide),
    dif_pos (show (2 : Fin S16x256x256.rank) ∈ dot_S16x256x256_S16x256x256_S16x256x256_2_1_1_2_0_0.rhsNonContracting by decide)]
  rfl

/-- The contraction into a zero accumulator at (p, h, l): the sum over the position s of the left operand at (p, h, s) times
    the right operand at (p, s, l). -/
theorem count_apply {φ₁ φ₂ : FTy} (A : FVec Ideal S16x256x256 φ₁) (B : FVec Ideal S16x256x256 φ₂) (p : Fin 16) (h l : Fin 256) :
    matmul (F := Ideal) dot_S16x256x256_S16x256x256_S16x256x256_2_1_1_2_0_0 none A B
        (constant (F := Ideal) S16x256x256 .f32 0x00000000#32) (ix3 p h l)
      = ∑ s : Fin 256, A (ix3 p h s) * B (ix3 p s l) := by
  simp only [matmul]
  rw [Ideal.matmul_constant_zero_apply,
    ← Equiv.sum_comp (contrEquiv1 dot_S16x256x256_S16x256x256_S16x256x256_2_1_1_2_0_0 256 rfl rfl).symm]
  refine Finset.sum_congr rfl fun s _ => ?_
  have hk := contrEquiv1_symm_val dot_S16x256x256_S16x256x256_S16x256x256_2_1_1_2_0_0 256 rfl rfl s
  have el : dot_S16x256x256_S16x256x256_S16x256x256_2_1_1_2_0_0.lhsIdx (ix3 p h l)
      ((contrEquiv1 dot_S16x256x256_S16x256x256_S16x256x256_2_1_1_2_0_0 256 rfl rfl).symm s) = ix3 p h s :=
    funext fun a => Fin.ext (by
      match a with
      | ⟨0, _⟩ => exact lhs_Dhl_0 _ _
      | ⟨1, _⟩ => exact lhs_Dhl_1 _ _
      | ⟨2, _⟩ => exact (lhs_Dhl_2 _ _).trans hk)
  have er : dot_S16x256x256_S16x256x256_S16x256x256_2_1_1_2_0_0.rhsIdx (ix3 p h l)
      ((contrEquiv1 dot_S16x256x256_S16x256x256_S16x256x256_2_1_1_2_0_0 256 rfl rfl).symm s) = ix3 p s l :=
    funext fun a => Fin.ext (by
      match a with
      | ⟨0, _⟩ => exact rhs_Dhl_0 _ _
      | ⟨1, _⟩ => exact (rhs_Dhl_1 _ _).trans hk
      | ⟨2, _⟩ => exact rhs_Dhl_2 _ _)
  rw [el, er]

/-! ## The two one-hot operands, the count and the presence indicator -/

/-- The left operand at (p, h, s): 1 when the high part of row p's word at position s is the digit h, else 0. -/
theorem hiInd_apply (x0 : Vec Ideal S16x256 .i32) (p : Fin 16) (h s : Fin 256) :
    (truncf (F := Ideal) .bf16 (sitofp (F := Ideal) .f32 (extui 32 (cmpi .eq
        (broadcastTo S16x256x256 (shapeCast S16x1x256 (shrsi x0 (broadcast S16x256 8#32)) shapeCasts_S16x256_S16x1x256)
          broadcasts_S16x1x256_S16x256x256)
        (broadcastTo S16x256x256 (iota .tc S1x256x1 32 [1] iota_S1x256x1_d1_w32) broadcasts_S1x256x1_S16x256x256))
        natLt_1_32)) bitsLt_bf16_f32) (ix3 p h s)
      = if IntOp.shrsi .vector (x0 (ix2 p s)) 8#32 = BitVec.ofNat 32 h.val then (1 : EReal) else 0 := by
  refine (eq_ind _ _).trans ?_
  rw [rowsOverMiddle_apply, middleCounter_apply]
  rfl

/-- The right operand at (p, s, l): 1 when the low part of row p's word at position s is the digit l, else 0. -/
theorem loInd_apply (x0 : Vec Ideal S16x256 .i32) (p : Fin 16) (s l : Fin 256) :
    (truncf (F := Ideal) .bf16 (sitofp (F := Ideal) .f32 (extui 32 (cmpi .eq
        (broadcastTo S16x256x256 (shapeCast S16x256x1 (andi x0 (broadcast S16x256 255#32)) shapeCasts_S16x256_S16x256x1)
          broadcasts_S16x256x1_S16x256x256)
        (broadcastTo S16x256x256 (iota .tc S1x1x256 32 [2] iota_S1x1x256_d2_w32) broadcasts_S1x1x256_S16x256x256))
        natLt_1_32)) bitsLt_bf16_f32) (ix3 p s l)
      = if IntOp.andi (x0 (ix2 p s)) 255#32 = BitVec.ofNat 32 l.val then (1 : EReal) else 0 := by
  refine (eq_ind _ _).trans ?_
  rw [rowsOverLast_apply, lastCounter_apply]
  rfl

/-- The presence indicator at an index: 1 when the count there is positive, else 0. -/
theorem presence_apply (M : FVec Ideal S16x256x256 .f32) (i : S16x256x256.Idx) :
    (sitofp (F := Ideal) .f32 (extui 32 (cmpf .ogt M (broadcast S16x256x256 (FloatOps.ofBits (F := Ideal) .f32 0x00000000#32)))
        natLt_1_32)) i
      = if 0 < M i then (1 : EReal) else 0 :=
  pos_ind (M i)

/-- The count at (p, h, l) is positive exactly when some position of row p holds the word with digits h, l. -/
theorem count_pos_iff (x0 : Vec Ideal S16x256 .i32) (p : Fin 16) (h l : Fin 256) :
    0 < matmul (F := Ideal) dot_S16x256x256_S16x256x256_S16x256x256_2_1_1_2_0_0 none
        (truncf (F := Ideal) .bf16 (sitofp (F := Ideal) .f32 (extui 32 (cmpi .eq
          (broadcastTo S16x256x256 (shapeCast S16x1x256 (shrsi x0 (broadcast S16x256 8#32)) shapeCasts_S16x256_S16x1x256)
            broadcasts_S16x1x256_S16x256x256)
          (broadcastTo S16x256x256 (iota .tc S1x256x1 32 [1] iota_S1x256x1_d1_w32) broadcasts_S1x256x1_S16x256x256))
          natLt_1_32)) bitsLt_bf16_f32)
        (truncf (F := Ideal) .bf16 (sitofp (F := Ideal) .f32 (extui 32 (cmpi .eq
          (broadcastTo S16x256x256 (shapeCast S16x256x1 (andi x0 (broadcast S16x256 255#32)) shapeCasts_S16x256_S16x256x1)
            broadcasts_S16x256x1_S16x256x256)
          (broadcastTo S16x256x256 (iota .tc S1x1x256 32 [2] iota_S1x1x256_d2_w32) broadcasts_S1x1x256_S16x256x256))
          natLt_1_32)) bitsLt_bf16_f32)
        (constant (F := Ideal) S16x256x256 .f32 0x00000000#32) (ix3 p h l)
      ↔ ∃ s : Fin 256, x0 (ix2 p s) = BitVec.ofNat 32 (256 * h.val + l.val) := by
  rw [count_apply, Finset.sum_congr rfl (fun s _ => congrArg₂ (· * ·) (hiInd_apply x0 p h s) (loInd_apply x0 p s l)),
    sum_ind_pos]
  exact exists_congr fun s => digits_iff (x0 (ix2 p s)) h.val l.val h.isLt l.isLt

open Classical in
/-- The stored block at (p, q): 1 or 0 according as some position s of row p holds the word q, times the weight
    table's entry at the base-256 digits of q. -/
theorem pay_apply (x0 : Vec Ideal S16x256 .i32) (x1 : Vec Ideal S256x256 .f32) (p : Fin 16) (q : Fin 50257) :
    k0_pay1 (F := Ideal) x0 x1 (ix2 p q)
      = (if ∃ s : Fin 256, x0 (ix2 p s) = BitVec.ofNat 32 q.val then (1 : EReal) else 0)
        * x1 (ix2 (⟨q.val / 256, by have := q.isLt; omega⟩ : Fin 256) (⟨q.val % 256, Nat.mod_lt _ (by decide)⟩ : Fin 256)) := by
  unfold k0_pay1
  refine (flatCut_apply _ p q).trans ?_
  refine (mulf_apply _ _ _).trans ?_
  refine congrArg₂ (· * ·) ?_ (tableOverRows_apply x1 p _ _)
  refine (presence_apply _ _).trans ?_
  refine if_congr ((count_pos_iff x0 p _ _).trans ?_) rfl rfl
  have e : 256 * (q.val / 256) + q.val % 256 = q.val := by omega
  exact exists_congr fun s => by rw [e]

end Cert.KernelIdeal.Payload

end
-- ==== Proof.ScatterSet.lean ====
/-
  The host scatter whose body returns the update (an array `.at[…].set(…)`), when every update element that lands
  on a given operand element carries ONE value `c`: the element is `c` if some update index lands on it and the
  operand's own entry otherwise. Repeated landings are harmless, since they all write `c`; update indices that fall
  outside the operand are dropped. Also: an update index lands on element `i` exactly when, on every axis, its start
  plus its window coordinate is `i`'s coordinate.
-/
import Idealize.ShloMosaic.PureOps

noncomputable section

namespace Cert.ScatterSet

open Idealize.ShloMosaic

variable {α : Type} {s si u : Shape} {w : Nat}

/-- Update index `j` lands on operand element `i` iff on every axis start + window coordinate is `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split_ifs with h
  · constructor
    · intro e a
      have h2 : (d.start j idx a + (d.window j a : Int)).toNat = (i a).val :=
        congrArg Fin.val (congrFun (Option.some.inj e) a)
      have := (h a).1
      omega
    · intro e
      refine congrArg some (funext fun a => Fin.ext ?_)
      show (d.start j idx a + (d.window j a : Int)).toNat = (i a).val
      rw [e a]; exact Int.toNat_natCast _
  · constructor
    · intro e; cases e
    · intro e
      exact absurd (fun a => by have := e a; have := (i a).isLt; constructor <;> omega) h

/-- One step of the scatter's fold: update position `n` replaces the element it lands on by its update. -/
abbrev step (d : ScatterDims s si u) (idx : IVec si w) (upd : u.Idx → α) (r : s.Idx → α) (n : Fin u.numel) : s.Idx → α :=
  match d.resultIdx? (u.rowMajor.symm n) idx with
  | some i => fun i' => if i' = i then (fun (_ : α) (b : α) => b) (r i) (upd (u.rowMajor.symm n)) else r i'
  | none => r

theorem scatter_eq_foldl (d : ScatterDims s si u) (x : s.Idx → α) (idx : IVec si w) (upd : u.Idx → α) :
    Host.scatter d (fun _ b => b) x idx upd = (List.finRange u.numel).foldl (step d idx upd) x := rfl

/-- Folding over update positions none of which lands on `i` leaves `i`'s entry alone. -/
theorem foldl_miss (d : ScatterDims s si u) (idx : IVec si w) (upd : u.Idx → α) (i : s.Idx) :
    ∀ (l : List (Fin u.numel)) (r : s.Idx → α), (∀ n ∈ l, d.resultIdx? (u.rowMajor.symm n) idx ≠ some i) →
      l.foldl (step d idx upd) r i = r i := by
  intro l
  induction l with
  | nil => intro r _; rfl
  | cons a t ih =>
    intro r h
    rw [List.foldl_cons, ih _ (fun n hn => h n (List.mem_cons_of_mem _ hn))]
    have ha := h a (List.mem_cons_self ..)
    unfold step
    cases hr : d.resultIdx? (u.rowMajor.symm a) idx with
    | none => rfl
    | some i0 =>
      have hne : i ≠ i0 := fun e => ha (by rw [hr, e])
      simp only [if_neg hne]

/-- Folding over update positions one of which lands on `i`, all those that do carrying `c`, leaves `c` at `i`. -/
theorem foldl_hit (d : ScatterDims s si u) (idx : IVec si w) (upd : u.Idx → α) (i : s.Idx) (c : α)
    (hc : ∀ j, d.resultIdx? j idx = some i → upd j = c) :
    ∀ (l : List (Fin u.numel)) (r : s.Idx → α), (∃ n ∈ l, d.resultIdx? (u.rowMajor.symm n) idx = some i) →
      l.foldl (step d idx upd) r i = c := by
  intro l
  induction l with
  | nil => intro r h; obtain ⟨n, hn, _⟩ := h; cases hn
  | cons a t ih =>
    intro r h
    rw [List.foldl_cons]
    by_cases ht : ∃ n ∈ t, d.resultIdx? (u.rowMajor.symm n) idx = some i
    · exact ih _ ht
    · have hmiss : ∀ n ∈ t, d.resultIdx? (u.rowMajor.symm n) idx ≠ some i := fun n hn e => ht ⟨n, hn, e⟩
      rw [foldl_miss d idx upd i t _ hmiss]
      obtain ⟨n, hn, e⟩ := h
      rcases List.mem_cons.mp hn with rfl | hnt
      · unfold step
        rw [e]
        simp only [if_true]
        exact hc _ e
      · exact absurd e (hmiss n hnt)

/-- An element some update index lands on, every such update carrying `c`: the scatter leaves `c` there. -/
theorem scatter_hit (d : ScatterDims s si u) (x : s.Idx → α) (idx : IVec si w) (upd : u.Idx → α) (i : s.Idx) (c : α)
    (hc : ∀ j, d.resultIdx? j idx = some i → upd j = c) (h : ∃ j, d.resultIdx? j idx = some i) :
    Host.scatter d (fun _ b => b) x idx upd i = c := by
  rw [scatter_eq_foldl]
  obtain ⟨j, hj⟩ := h
  exact foldl_hit d idx upd i c hc _ x ⟨u.rowMajor j, List.mem_finRange _, by rw [Equiv.symm_apply_apply]; exact hj⟩

/-- An element no update index lands on keeps the operand's entry. -/
theorem scatter_miss (d : ScatterDims s si u) (x : s.Idx → α) (idx : IVec si w) (upd : u.Idx → α) (i : s.Idx)
    (h : ∀ j, d.resultIdx? j idx ≠ some i) :
    Host.scatter d (fun _ b => b) x idx upd i = x i := by
  rw [scatter_eq_foldl]
  exact foldl_miss d idx upd i _ x (fun n _ => h _)

end Cert.ScatterSet

end
-- ==== Proof.HostTable.lean ====
/-
  The 256 × 256 weight table the host builds before the kernel region: the weights padded with zeros to 65536 entries,
  laid out row-major as 256 rows of 256, with entry (0, 1) — the padding token — set to zero. Entry (h, l) is therefore
  zero when (h, l) = (0, 1) or 256·h + l ≥ 50257, and the weight of token 256·h + l otherwise.
-/
import proofs.«411009_j1185410973872_3_alg».proof.Proof.Gen.KernelIdeal.Frame
import proofs.«411009_j1185410973872_3_alg».proof.Proof.ScatterSet
import Idealize.ShloMosaic.Lib.StableHlo.Run
import Idealize.ShloMosaic.Lib.Pipeline.Value
import Idealize.ShloMosaic.Lib.KernelVsHost
import Idealize.ShloMosaic.Lib.ValueIdx
import Idealize.ShloMosaic.PureOps.Ideal.Laws

noncomputable section

namespace Cert.KernelIdeal.HostTable

open Cert.KernelIdeal Cert.KernelIdeal.Gen Idealize.ShloMosaic Idealize.ShloMosaic.TcCoe Idealize.SL.Sem
open Idealize.ShloMosaic.ValueIdx

/-- The host operations' term for the table, as a function of the weights. -/
def table (w : FVec Ideal S50257 .f32) : FVec Ideal S256x256 .f32 :=
  Host.scatter scatter_S256x256_S2_S__n_01_01_0 (fun _ b => b)
    (shapeCast S256x256 (pad S65536 ![0] ![15279] ![0] w (sitofp (F := Ideal) .f32 (constantI S_ 32 0#32))
      pads_S50257_S65536_0152790 h_S_) shapeCasts_S65536_S256x256)
    (concatenate S2 0 [⟨S1, broadcastInDim S1 ![] bcast_S_S1 (constantI S_ 32 0#32)⟩,
      ⟨S1, broadcastInDim S1 ![] bcast_S_S1 (constantI S_ 32 1#32)⟩] concatenates_S1_S1_S2_d0)
    (constant (F := Ideal) S_ .f32 0x00000000#32)

/-! ### The scatter of one zero: where its single update lands -/

abbrev idxWords : IVec S2 32 :=
  concatenate S2 0 [⟨S1, broadcastInDim S1 ![] bcast_S_S1 (constantI S_ 32 0#32)⟩,
    ⟨S1, broadcastInDim S1 ![] bcast_S_S1 (constantI S_ 32 1#32)⟩] concatenates_S1_S1_S2_d0

/-- Component 0 of the scatter's one start index is the word 0. -/
theorem idxWord0 : idxWords (ix1 (0 : Fin 2)) = 0#32 := by
  unfold idxWords
  rw [concatenate_pair_apply_left (0 : Fin S2.rank) _ _ concatenates_S1_S1_S2_d0 (ix1 (0 : Fin 2)) rfl (ix1 (0 : Fin 1))
    (fun b => by match b with | ⟨0, _⟩ => rfl)]
  rfl

/-- Component 1 of the scatter's one start index is the word 1. -/
theorem idxWord1 : idxWords (ix1 (1 : Fin 2)) = 1#32 := by
  unfold idxWords
  rw [concatenate_pair_apply_right (0 : Fin S2.rank) _ _ concatenates_S1_S1_S2_d0 (ix1 (1 : Fin 2)) rfl rfl (ix1 (0 : Fin 1))
    (fun b hb => by match b with | ⟨0, _⟩ => exact absurd rfl hb) rfl]
  rfl

/-- The scatter's start on operand axis 0 is the signed value of index word 0. -/
theorem start0 (j : S_.Idx) (idx : IVec S2 32) :
    scatter_S256x256_S2_S__n_01_01_0.start j idx 0 = (idx (ix1 (0 : Fin 2))).toInt := by
  unfold ScatterDims.start
  rw [dif_pos (by decide)]
  refine congrArg (fun t => (idx t).toInt) (funext fun b => ?_)
  match b with
  | ⟨0, _⟩ => rfl

/-- The scatter's start on operand axis 1 is the signed value of index word 1. -/
theorem start1 (j : S_.Idx) (idx : IVec S2 32) :
    scatter_S256x256_S2_S__n_01_01_0.start j idx 1 = (idx (ix1 (1 : Fin 2))).toInt := by
  unfold ScatterDims.start
  rw [dif_pos (by decide)]
  refine congrArg (fun t => (idx t).toInt) (funext fun b => ?_)
  match b with
  | ⟨0, _⟩ => rfl

/-- Both operand axes are inserted: the window coordinate is zero. -/
theorem window0 (j : S_.Idx) : scatter_S256x256_S2_S__n_01_01_0.window j 0 = 0 := by
  unfold ScatterDims.window; rw [dif_neg (by decide)]
theorem window1 (j : S_.Idx) : scatter_S256x256_S2_S__n_01_01_0.window j 1 = 0 := by
  unfold ScatterDims.window; rw [dif_neg (by decide)]

/-- The single update lands on entry (h, l) exactly when (h, l) = (0, 1). -/
theorem lands_iff (j : S_.Idx) (h l : Fin 256) :
    scatter_S256x256_S2_S__n_01_01_0.resultIdx? j idxWords = some (ix2 h l) ↔ h.val = 0 ∧ l.val = 1 := by
  rw [Cert.ScatterSet.resultIdx?_eq_some_iff]
  constructor
  · intro e
    have e0 := e 0
    have e1 := e 1
    rw [start0, window0, idxWord0] at e0
    rw [start1, window1, idxWord1] at e1
    have h0 : (0#32 : BitVec 32).toInt = 0 := by decide
    have h1 : (1#32 : BitVec 32).toInt = 1 := by decide
    rw [h0] at e0; rw [h1] at e1
    change (0 : Int) + ((0 : Nat) : Int) = (h.val : Int) at e0
    change (1 : Int) + ((0 : Nat) : Int) = (l.val : Int) at e1
    omega
  · rintro ⟨hh, hl⟩ a
    match a with
    | ⟨0, _⟩ =>
      show scatter_S256x256_S2_S__n_01_01_0.start j idxWords 0 + ((scatter_S256x256_S2_S__n_01_01_0.window j 0 : Nat) : Int) = (h.val : Int)
      rw [start0, window0, idxWord0, hh]; decide
    | ⟨1, _⟩ =>
      show scatter_S256x256_S2_S__n_01_01_0.start j idxWords 1 + ((scatter_S256x256_S2_S__n_01_01_0.window j 1 : Nat) : Int) = (l.val : Int)
      rw [start1, window1, idxWord1, hl]; decide

/-! ### The table at an entry -/

/-- The padding value, the integer constant zero converted, is the extended real zero. -/
theorem padValue (j : S_.Idx) : (sitofp (F := Ideal) .f32 (constantI S_ 32 0#32) : FVec Ideal S_ .f32) j = (0 : EReal) := by
  show (((0#32 : BitVec 32).toInt : ℝ) : EReal) = 0
  have : (0#32 : BitVec 32).toInt = 0 := by decide
  rw [this]; simp

/-- The padded weights, laid out as 256 rows of 256, at entry (h, l): the weight of token 256·h + l when that is a
    token, zero in the padding. -/
theorem padded_apply (w : FVec Ideal S50257 .f32) (h l : Fin 256) :
    (shapeCast S256x256 (pad S65536 ![0] ![15279] ![0] w (sitofp (F := Ideal) .f32 (constantI S_ 32 0#32))
      pads_S50257_S65536_0152790 h_S_) shapeCasts_S65536_S256x256 : FVec Ideal S256x256 .f32) (ix2 h l)
      = if hlt : 256 * h.val + l.val < 50257 then w (ix1 ⟨256 * h.val + l.val, hlt⟩) else (0 : EReal) := by
  have hk : 256 * h.val + l.val < 65536 := by have := h.isLt; have := l.isLt; omega
  rw [shapeCast_apply _ shapeCasts_S65536_S256x256 (ix2 h l) (ix1 (⟨256 * h.val + l.val, hk⟩ : Fin 65536))
    (by rw [Shape.rowMajor_val_one, Shape.rowMajor_val_two]; show 256 * h.val + l.val = h.val * 256 + l.val; omega)]
  by_cases hlt : 256 * h.val + l.val < 50257
  · rw [dif_pos hlt]
    exact pad_apply_of_inside _ _ _ w _ pads_S50257_S65536_0152790 h_S_ _ (ix1 ⟨256 * h.val + l.val, hlt⟩)
      (fun a => by match a with | ⟨0, _⟩ => show 256 * h.val + l.val = 0 + (256 * h.val + l.val) * (0 + 1); omega)
  · rw [dif_neg hlt]
    rw [pad_apply_of_not_inside _ _ _ w _ pads_S50257_S65536_0152790 h_S_ _ (0 : Fin 1)
      (by
        rintro ⟨-, -, h3⟩
        change (256 * h.val + l.val - 0) / (0 + 1) < 50257 at h3
        simp at h3; omega)]
    exact padValue _

/-- THE TABLE at entry (h, l): zero at the padding token's entry (0, 1) and in the padding, the token's weight elsewhere. -/
theorem table_apply (w : FVec Ideal S50257 .f32) (h l : Fin 256) :
    table w (ix2 h l) = if h.val = 0 ∧ l.val = 1 then (0 : EReal)
      else if hlt : 256 * h.val + l.val < 50257 then w (ix1 ⟨256 * h.val + l.val, hlt⟩) else (0 : EReal) := by
  unfold table
  by_cases hz : h.val = 0 ∧ l.val = 1
  · rw [if_pos hz]
    exact Cert.ScatterSet.scatter_hit _ _ _ _ (ix2 h l) (0 : EReal) (fun j _ => Ideal.ofBits_zero_f32)
      ⟨ix0, (lands_iff ix0 h l).2 hz⟩
  · rw [if_neg hz, Cert.ScatterSet.scatter_miss _ _ _ _ (ix2 h l) (fun j e => hz ((lands_iff j h l).1 e))]
    exact padded_apply w h l

variable (m : (ℓ : Loc nD τ sig) → Buf (Elt Ideal) ℓ)

/-- The region finds the table buffer at the host operations' term of the weights argument. -/
theorem V_table (c : Dev nD) :
    (V (F := Ideal) m c main_v5 : S256x256.Idx → EReal) = table (m ((c : Thread nD τ).loc main_arg1)) := by
  dsimp only [V]
  simp only [hostOps0, hostOps0_1, hostOps0_2, List.flatten_cons, List.flatten_nil, List.append_nil, List.cons_append,
    List.nil_append]
  after_results
  rfl

end Cert.KernelIdeal.HostTable

end
-- ==== Proof.KernelValue.lean ====
/-
  The kernel's result array as one function of its arguments. Grid point t handles rows 16·t … 16·t + 15: it reads
  that band of the id table and the whole 256 × 256 weight table, and writes back the band of the result whose entry
  (p, q) is the indicator that token q occurs in row 16·t + p, times the table's entry at q's base-256 digits. The 32
  bands tile the 512 × 50257 result, so the array after the run is that function everywhere; with the table's entries
  known (the token's weight, zeroed at the padding token) it is the specified function.
-/
import proofs.«411009_j1185410973872_3_alg».proof.Proof.Gen.KernelIdeal.Value
import proofs.«411009_j1185410973872_3_alg».proof.Proof.KernelPayload
import proofs.«411009_j1185410973872_3_alg».proof.Proof.HostTable
import proofs.«411009_j1185410973872_3_alg».proof.Proof.Spec
import Idealize.ShloMosaic.Lib.Pipeline.Value
import Idealize.ShloMosaic.Lib.ValueIdx

noncomputable section

namespace Cert.KernelIdeal.KernelValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The id table and the weight table as the region finds them, at their literal types. -/
abbrev idsArr (c : Dev nD) : IVec S512x256 32 := V m c main_arg0
abbrev tblArr (c : Dev nD) : FVec Ideal S256x256 .f32 := V m c main_v5
/-- The two input blocks of point `t`, at their literal types. -/
abbrev idsBlk (c : Dev nD) (t : Fin cfg0.N) : Vec Ideal S16x256 .i32 := iblk m c 0 t
abbrev tblBlk (c : Dev nD) (t : Fin cfg0.N) : Vec Ideal S256x256 .f32 := iblk m c 1 t

open Classical in
/-- The band function at row b and token v: indicator of "token v occurs in row b" times the table at v's base-256
    digits. -/
def Kat (ids : IVec S512x256 32) (tbl : FVec Ideal S256x256 .f32) (b : Fin 512) (v : Fin 50257) : EReal :=
  (if ∃ s : Fin 256, ids (ix2 b s) = BitVec.ofNat 32 v.val then (1 : EReal) else 0)
    * tbl (ix2 (⟨v.val / 256, by have := v.isLt; omega⟩ : Fin 256) (⟨v.val % 256, Nat.mod_lt _ (by decide)⟩ : Fin 256))

/-- The band function as an array. -/
def K (ids : IVec S512x256 32) (tbl : FVec Ideal S256x256 .f32) : FVec Ideal S512x50257 .f32 :=
  fun i => Kat ids tbl (i 0) (i 1)

/-- The printed index maps over the 32 grid points: the id window and the result window move down one band per
    point, the table window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem N_eq : cfg0.N = 32 := by decide

/-- Point `t`'s id block is rows 16·t … of the id table. -/
theorem idsBlk_apply (c : Dev nD) (t : Fin cfg0.N) (p : Fin 16) (s : Fin 256) :
    idsBlk m c t (ix2 p s) = idsArr m c (ix2 (⟨16 * t.val + p.val, by have := t.isLt; have := N_eq; omega⟩ : Fin 512) s) := by
  show V m c main_arg0 (((cfg0.win 0).blk t).view.emb (ix2 p s)) = V m c main_arg0 _
  refine congrArg (V m c main_arg0) (funext fun a => Fin.ext ?_)
  obtain ⟨e0, e1, -⟩ := idx_facts t
  match a with
  | ⟨0, _⟩ => show win0_0.index t (0 : Fin 2) * 16 + 1 * p.val = 16 * t.val + p.val; omega
  | ⟨1, _⟩ => show win0_0.index t (1 : Fin 2) * 256 + 1 * s.val = s.val; omega

/-- Every point's table block is the whole table. -/
theorem tblBlk_apply (c : Dev nD) (t : Fin cfg0.N) (h l : Fin 256) :
    tblBlk m c t (ix2 h l) = tblArr m c (ix2 h l) := by
  show V m c main_v5 (((cfg0.win 1).blk t).view.emb (ix2 h l)) = V m c main_v5 _
  refine congrArg (V m c main_v5) (funext fun a => Fin.ext ?_)
  obtain ⟨-, -, e2, e3, -⟩ := idx_facts t
  match a with
  | ⟨0, _⟩ => show win0_1.index t (0 : Fin 2) * 256 + 1 * h.val = h.val; omega
  | ⟨1, _⟩ => show win0_1.index t (1 : Fin 2) * 256 + 1 * l.val = l.val; omega

/-- The band function at an entry. -/
theorem K_apply (ids : IVec S512x256 32) (tbl : FVec Ideal S256x256 .f32) (b : Fin 512) (v : Fin 50257) :
    K ids tbl (ix2 b v) = Kat ids tbl b v := rfl

/-- Entry (p, q) of what point `t` stores is entry (16·t + p, q) of the band function of the two arrays. -/
theorem band_entry (c : Dev nD) (t : Fin cfg0.N) (p : Fin 16) (q : Fin 50257) :
    k0_pay1 (F := Ideal) (idsBlk m c t) (tblBlk m c t) (ix2 p q)
      = K (idsArr m c) (tblArr m c) (ix2 (⟨16 * t.val + p.val, by have := t.isLt; have := N_eq; omega⟩ : Fin 512) q) := by
  rw [Cert.KernelIdeal.Payload.pay_apply, K_apply]
  unfold Kat
  simp only [idsBlk_apply, tblBlk_apply]

/-- WHAT POINT `t` WRITES BACK is band `t` of the band function of the arrays as the region finds them. -/
theorem flushed_eq (c : Dev nD) (t : Fin cfg0.N) :
    (dats m 0 c).flushed 2 t = ((cfg0.win 2).blk t).view.read (Elt Ideal) (K (idsArr m c) (tblArr m c)) := by
  rw [Cert.KernelIdeal.Value.flushed2]
  unfold out0_2
  rw [View.canon_unit_zero hz]
  simp only [View.ld_unit_zero (S := S16x256) hz, View.ld_unit_zero (S := S256x256) hz]
  funext j
  obtain ⟨p, q, rfl⟩ : ∃ (p : Fin 16) (q : Fin 50257), j = ix2 p q := ⟨j 0, j 1, eq_ix2 (n0 := 16) (n1 := 50257) j⟩
  show k0_pay1 (F := Ideal) (idsBlk m c t) (tblBlk m c t) (ix2 p q)
    = K (idsArr m c) (tblArr m c) (((cfg0.win 2).blk t).view.emb (ix2 p q))
  rw [band_entry]
  refine congrArg (K (idsArr m c) (tblArr m c)) (funext fun a => Fin.ext ?_)
  obtain ⟨-, -, -, -, e4, e5⟩ := idx_facts t
  match a with
  | ⟨0, _⟩ => show 16 * t.val + p.val = win0_2.index t (0 : Fin 2) * 16 + 1 * p.val; omega
  | ⟨1, _⟩ => show q.val = win0_2.index t (1 : Fin 2) * 50257 + 1 * q.val; omega

/-- An index of the result array is in point `t`'s band iff each coordinate is in the band's range on its axis. -/
theorem mem_blk (t : Fin cfg0.N) (i : S512x50257.Idx) :
    i ∈ ((cfg0.win 2).blk t).view.set ↔ ∀ a : Fin 2, win0_2.index t a * S16x50257.size a ≤ (i a).val
      ∧ (i a).val < win0_2.index t a * S16x50257.size a + S16x50257.size a := by
  show i ∈ ((View.whole main_v6).slice (win0_2.rect t)).set ↔ _
  rw [View.set_slice_whole, Rect.mem_set_unit]
  exact Iff.rfl

/-- The 32 bands cover the result array: row r lies in band r / 16. -/
theorem cover (i : S512x50257.Idx) : ∃ t : Fin cfg0.N, (cfg0.win 2).flush t = true ∧ i ∈ ((cfg0.win 2).blk t).view.set := by
  have hi0 : (i 0).val < 512 := (i 0).isLt
  have hi1 : (i 1).val < 50257 := (i 1).isLt
  refine ⟨⟨(i 0).val / 16, by rw [N_eq]; omega⟩, flush0_2 _, ?_⟩
  rw [mem_blk]
  obtain ⟨-, -, -, -, e4, e5⟩ := idx_facts ⟨(i 0).val / 16, by rw [N_eq]; omega⟩
  intro a
  match a with
  | ⟨0, _⟩ =>
    show win0_2.index _ (0 : Fin 2) * 16 ≤ (i 0).val ∧ (i 0).val < win0_2.index _ (0 : Fin 2) * 16 + 16
    rw [e4]; show (i 0).val / 16 * 16 ≤ (i 0).val ∧ (i 0).val < (i 0).val / 16 * 16 + 16; omega
  | ⟨1, _⟩ =>
    show win0_2.index _ (1 : Fin 2) * 50257 ≤ (i 1).val ∧ (i 1).val < win0_2.index _ (1 : Fin 2) * 50257 + 50257
    rw [e5]; omega

/-- THE RESULT ARRAY after the run is the band function of the arrays as the region finds them. -/
theorem final_K (c : Dev nD) : (dats m 0 c).arrAt 2 cfg0.N = K (idsArr m c) (tblArr m c) :=
  (dats m 0 c).arrAt_eq_of_cover 2 (K (idsArr m c) (tblArr m c)) (fun t _ => flushed_eq m c t) cover

/-- With the host-built table, the band function is the specified function of the ids and the weights: the table's
    entry at the base-256 digits of a token v < 50257 is v's weight, zero for the padding token; 1·x = x and 0·x = 0
    on the extended reals. -/
theorem K_table (ids : IVec S512x256 32) (w : FVec Ideal S50257 .f32) :
    K ids (Cert.KernelIdeal.HostTable.table w) = Cert.Spec.G ids w := by
  funext i
  obtain ⟨b, v, rfl⟩ : ∃ (b : Fin 512) (v : Fin 50257), i = ix2 b v := ⟨i 0, i 1, eq_ix2 i⟩
  rw [K_apply]
  unfold Kat
  rw [Cert.KernelIdeal.HostTable.table_apply]
  have hv : v.val < 50257 := v.isLt
  have hdig : 256 * (v.val / 256) + v.val % 256 = v.val := by omega
  by_cases h1 : v.val = 1
  · have : v.val / 256 = 0 ∧ v.val % 256 = 1 := by omega
    rw [if_pos this, mul_zero]
    exact (Cert.Spec.G_neg ids w b v (fun h => h.2 h1)).symm
  · have hne : ¬(v.val / 256 = 0 ∧ v.val % 256 = 1) := by omega
    rw [if_neg hne, dif_pos (by show 256 * (v.val / 256) + v.val % 256 < 50257; omega)]
    have hw : w (ix1 (⟨256 * (v.val / 256) + v.val % 256, by omega⟩ : Fin 50257)) = w (ix1 v) :=
      congrArg w (congrArg ix1 (Fin.ext hdig))
    rw [hw]
    by_cases ho : ∃ s : Fin 256, ids (ix2 b s) = BitVec.ofNat 32 v.val
    · rw [if_pos ho, one_mul]
      exact (Cert.Spec.G_pos ids w b v ho h1).symm
    · rw [if_neg ho, zero_mul]
      exact (Cert.Spec.G_neg ids w b v (fun h => ho h.1)).symm

/-- THE RESULT ARRAY after the run is the specified function of the two arguments. -/
theorem final_G (c : Dev nD) : (dats m 0 c).arrAt 2 cfg0.N
    = Cert.Spec.G (m ((c : Thread nD τ).loc main_arg0)) (m ((c : Thread nD τ).loc main_arg1)) := by
  rw [final_K]
  show K (V m c main_arg0) (V m c main_v5) = _
  rw [V_main_arg0, Cert.KernelIdeal.HostTable.V_table, K_table]

/-- The kernel's run: the result array at the specified function of the arguments, the arguments unchanged. -/
theorem run : θ_run defs (onTc (τ := τ) (main (F := Ideal))) ⟨m, fun _ => 0, ρ⟩ fun r => ∀ c : Dev nD,
      r.2.mem ((c : Thread nD τ).loc main_v6)
        = Cert.Spec.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_G m c), (h c).2⟩)
    (Cert.KernelIdeal.Value.run_blocks m ρ)

end Cert.KernelIdeal.KernelValue

end
-- ==== Proof.RefValue.lean ====
/-
  The reference's result, stage by stage, is the specified function: a scatter of ones at (row, id) followed by a
  scatter of zeros down the padding column, multiplied entry by entry with the weights broadcast over the rows.
-/
import proofs.«411009_j1185410973872_3_alg».proof.Proof.Gen.ReferenceIdeal.Read
import proofs.«411009_j1185410973872_3_alg».proof.Proof.ScatterSet
import proofs.«411009_j1185410973872_3_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## Words -/

/-- A natural number below 2³¹, as a 32-bit word, reads back signed as itself. -/
theorem toInt_ofNat_small (n : Nat) (h : n < 2 ^ 31) : (BitVec.ofNat 32 n).toInt = (n : Int) := by
  rw [BitVec.toInt_eq_toNat_of_lt (by rw [BitVec.toNat_ofNat]; omega), BitVec.toNat_ofNat]
  omega

/-- The negative-index wrap, select (x < 0) (x + n) x, leaves a non-negative word alone. -/
theorem select_slt_zero_of_nonneg (x y : BitVec 32) (h : 0 ≤ x.toInt) :
    Scalar.select (IntOp.cmpi .slt x 0#32) y x = x := by
  have hc : IntOp.cmpi .slt x 0#32 = 0#1 := by
    refine eq_zero_of_ne_one (fun e => ?_)
    have := IntOp.cmpi_slt.1 e
    have h0 : (0#32 : BitVec 32).toInt = 0 := by decide
    omega
  rw [hc, select_zero]

/-- A word whose signed value is the natural number n is the word of n. -/
theorem eq_ofNat_of_toInt_eq (x : BitVec 32) (n : Nat) (h : x.toInt = (n : Int)) : x = BitVec.ofNat 32 n := by
  rw [← BitVec.ofInt_toInt (x := x), h, BitVec.ofInt_natCast]

/-- The word 0x3F800000 is the extended real 1. -/
theorem ofBits_one_f32 : Ideal.ofBits .f32 0x3F800000#32 = (1 : EReal) := by
  simp [Ideal.ofBits, Ideal.ieee]
  rw [← EReal.coe_mul]
  norm_num

/-! ## The first scatter: ones at (row, id) -/

/-- The first scatter's dimension numbers: both operand axes inserted, the start index (row, id) read off the last
    axis of the index array. -/
abbrev D1 := scatter_S512x50257_S512x256x2_S512x256_n_01_01_2

/-- Update index (b, s) reads component c of its start index at (b, s, c). -/
theorem siIdx1 (b : Fin 512) (s : Fin 256) (c : Fin D1.scatterDimsToOperandDims.length) :
    D1.siIdx (ix2 b s) c = ix3 b s (⟨c.val, c.isLt⟩ : Fin 2) := by
  funext a; refine Fin.ext ?_
  match a with
  | ⟨0, _⟩ => rfl
  | ⟨1, _⟩ => rfl
  | ⟨2, _⟩ => rfl

/-- On the row axis the window of update (b, s) starts at the signed value of the index array at (b, s, 0). -/
theorem start1_0 {w : Nat} (idx : IVec S512x256x2 w) (b : Fin 512) (s : Fin 256) :
    D1.start (ix2 b s) idx 0 = (idx (ix3 b s (0 : Fin 2))).toInt := by
  unfold ScatterDims.start
  rw [dif_pos (show (0 : Fin 2) ∈ D1.scatterDimsToOperandDims from by decide), siIdx1]
  rfl

/-- On the token axis it starts at the signed value of the index array at (b, s, 1). -/
theorem start1_1 {w : Nat} (idx : IVec S512x256x2 w) (b : Fin 512) (s : Fin 256) :
    D1.start (ix2 b s) idx 1 = (idx (ix3 b s (1 : Fin 2))).toInt := by
  unfold ScatterDims.start
  rw [dif_pos (show (1 : Fin 2) ∈ D1.scatterDimsToOperandDims from by decide), siIdx1]
  rfl

/-- Both operand axes are inserted: the window has no extent. -/
theorem window1 (j : S512x256.Idx) (a : Fin 2) : D1.window j a = 0 := by
  unfold ScatterDims.window
  rw [dif_neg]
  decide +revert

/-- Component 0 of the start index at (b, s) is the row number b: the wrap of a negative row is never taken. -/
theorem v16_0 (ids : IVec S512x256 32) (b : Fin 512) (s : Fin 256) :
    val_main_v16 (F := Ideal) ids (ix3 b s (0 : Fin 2)) = BitVec.ofNat 32 b.val := by
  unfold val_main_v16
  rw [concatenate_pair_apply_left (t := S512x256x2) (s₁ := S512x256x1) (s₂ := S512x256x1) (2 : Fin 3) _ _ _
    (ix3 b s (0 : Fin 2)) rfl (ix3 b s (0 : Fin 1)) (fun a => match a with | ⟨0, _⟩ => rfl | ⟨1, _⟩ => rfl | ⟨2, _⟩ => rfl)]
  rw [val_main_v14_apply, val_main_v13_apply, val_main_v7_apply, val_main_v4_apply, val_main_v1_apply,
    val_main_v0_apply, val_main_v3_apply, val_main_c_apply]
  refine select_slt_zero_of_nonneg _ _ ?_
  rw [toInt_ofNat_small _ (by have := b.isLt; show b.val < _; omega)]
  exact Int.natCast_nonneg _

/-- Component 1 of the start index at (b, s) is the id at (b, s), no id being negative. -/
theorem v16_1 (ids : IVec S512x256 32) (hnn : ∀ i, 0 ≤ (ids i).toInt) (b : Fin 512) (s : Fin 256) :
    val_main_v16 (F := Ideal) ids (ix3 b s (1 : Fin 2)) = ids (ix2 b s) := by
  unfold val_main_v16
  rw [concatenate_pair_apply_right (t := S512x256x2) (s₁ := S512x256x1) (s₂ := S512x256x1) (2 : Fin 3) _ _ _
    (ix3 b s (1 : Fin 2)) rfl rfl (ix3 b s (0 : Fin 1))
    (fun a => match a with | ⟨0, _⟩ => fun _ => rfl | ⟨1, _⟩ => fun _ => rfl | ⟨2, _⟩ => fun h => absurd rfl h) rfl]
  have e : idx_main_v15 (ix3 b s (0 : Fin 1)) = ix2 b s := by
    funext a; match a with | ⟨0, _⟩ => rfl | ⟨1, _⟩ => rfl
  rw [val_main_v15_apply, val_main_v12_apply, val_main_v9_apply, val_main_v8_apply, val_main_c_1_apply, e]
  exact select_slt_zero_of_nonneg _ _ (hnn _)

/-- Update (b', s) of the first scatter lands on (b, v) exactly when b' = b and the id at (b', s) is v. -/
theorem lands1_iff (ids : IVec S512x256 32) (hnn : ∀ i, 0 ≤ (ids i).toInt) (b' b : Fin 512) (s : Fin 256)
    (v : Fin 50257) :
    D1.resultIdx? (ix2 b' s) (val_main_v16 (F := Ideal) ids) = some (ix2 b v) ↔
      b' = b ∧ ids (ix2 b' s) = BitVec.ofNat 32 v.val := by
  rw [Cert.ScatterSet.resultIdx?_eq_some_iff]
  have e0 : D1.start (ix2 b' s) (val_main_v16 (F := Ideal) ids) 0 + (D1.window (ix2 b' s) 0 : Int) = (b'.val : Int) := by
    rw [start1_0, window1, v16_0, toInt_ofNat_small _ (by have := b'.isLt; omega)]
    exact add_zero _
  have e1 : D1.start (ix2 b' s) (val_main_v16 (F := Ideal) ids) 1 + (D1.window (ix2 b' s) 1 : Int)
      = (ids (ix2 b' s)).toInt := by
    rw [start1_1, window1, v16_1 ids hnn]
    exact add_zero _
  constructor
  · intro h
    have h0 : _ = (b.val : Int) := h 0
    have h1 : _ = (v.val : Int) := h 1
    rw [e0] at h0
    rw [e1] at h1
    exact ⟨Fin.ext (by omega), eq_ofNat_of_toInt_eq _ _ h1⟩
  · rintro ⟨rfl, e⟩
    refine Fin.forall_fin_two.2 ⟨e0, e1.trans ?_⟩
    rw [e, toInt_ofNat_small _ (by have := v.isLt; omega)]

/-- Some update of the first scatter lands on (b, v) exactly when v occurs in row b of the id table. -/
theorem exists_lands1_iff (ids : IVec S512x256 32) (hnn : ∀ i, 0 ≤ (ids i).toInt) (b : Fin 512) (v : Fin 50257) :
    (∃ j, D1.resultIdx? j (val_main_v16 (F := Ideal) ids) = some (ix2 b v)) ↔ Cert.Spec.Occurs ids b v := by
  constructor
  · rintro ⟨j, hj⟩
    obtain ⟨b', s, rfl⟩ : ∃ b' s, j = ix2 b' s := ⟨j 0, j 1, eq_ix2 j⟩
    obtain ⟨rfl, e⟩ := (lands1_iff ids hnn b' b s v).1 hj
    exact ⟨s, e⟩
  · rintro ⟨s, e⟩
    exact ⟨ix2 b s, (lands1_iff ids hnn b b s v).2 ⟨rfl, e⟩⟩

/-- Where v occurs in row b the first scatter leaves a one … -/
theorem v18_hit (ids : IVec S512x256 32) (hnn : ∀ i, 0 ≤ (ids i).toInt) (b : Fin 512) (v : Fin 50257)
    (h : Cert.Spec.Occurs ids b v) : val_main_v18 (F := Ideal) ids (ix2 b v) = (1 : EReal) := by
  unfold val_main_v18
  refine Cert.ScatterSet.scatter_hit _ _ _ _ _ _ (fun j _ => ?_) ((exists_lands1_iff ids hnn b v).2 h)
  rw [val_main_v17_apply, val_main_cst_3_apply]
  exact ofBits_one_f32

/-- … and where it does not, the zero it started from. -/
theorem v18_miss (ids : IVec S512x256 32) (hnn : ∀ i, 0 ≤ (ids i).toInt) (b : Fin 512) (v : Fin 50257)
    (h : ¬Cert.Spec.Occurs ids b v) : val_main_v18 (F := Ideal) ids (ix2 b v) = (0 : EReal) := by
  unfold val_main_v18
  rw [Cert.ScatterSet.scatter_miss _ _ _ _ _ (fun j hj => h ((exists_lands1_iff ids hnn b v).1 ⟨j, hj⟩)),
    val_main_v2_apply, val_main_cst_apply]
  exact Ideal.ofBits_zero_f32

/-! ## The second scatter: zeros down the padding column -/

/-- The second scatter's dimension numbers: the row axis is the window, the token axis inserted, its start read off
    the one index word. -/
abbrev D2 := scatter_S512x50257_S1_S512_0_1_1_0

/-- The row axis is named by no index component: the window starts at row 0 … -/
theorem start2_0 {w : Nat} (idx : IVec S1 w) (b : Fin 512) : D2.start (ix1 b) idx 0 = 0 := by
  unfold ScatterDims.start
  rw [dif_neg (by decide)]

/-- … and on the token axis at the signed value of the one index word. -/
theorem start2_1 {w : Nat} (idx : IVec S1 w) (b : Fin 512) :
    D2.start (ix1 b) idx 1 = (idx (ix1 (0 : Fin 1))).toInt := by
  unfold ScatterDims.start
  rw [dif_pos (show (1 : Fin 2) ∈ D2.scatterDimsToOperandDims from by decide)]
  refine congrArg (fun k => (idx k).toInt) ?_
  funext a; refine Fin.ext ?_
  match a with
  | ⟨0, _⟩ => rfl

/-- Update b's window coordinate on the row axis is b … -/
theorem window2_0 (b : Fin 512) : D2.window (ix1 b) 0 = b.val := by
  unfold ScatterDims.window
  rw [dif_pos (show (0 : Fin 2) ∈ D2.sKept from by decide)]
  rfl

/-- … and on the inserted token axis zero. -/
theorem window2_1 (b : Fin 512) : D2.window (ix1 b) 1 = 0 := by
  unfold ScatterDims.window
  rw [dif_neg (by decide)]

/-- Update b' of the second scatter lands on (b, v) exactly when b' = b and v is the padding token 1. -/
theorem lands2_iff (b' b : Fin 512) (v : Fin 50257) :
    D2.resultIdx? (ix1 b') (val_main_v19 (F := Ideal)) = some (ix2 b v) ↔ b' = b ∧ v.val = 1 := by
  rw [Cert.ScatterSet.resultIdx?_eq_some_iff]
  have e0 : D2.start (ix1 b') (val_main_v19 (F := Ideal)) 0 + (D2.window (ix1 b') 0 : Int) = (b'.val : Int) := by
    rw [start2_0, window2_0]
    exact zero_add _
  have e1 : D2.start (ix1 b') (val_main_v19 (F := Ideal)) 1 + (D2.window (ix1 b') 1 : Int) = 1 := by
    rw [start2_1, window2_1, val_main_v19_apply, val_main_c_4_apply]
    rfl
  constructor
  · intro h
    have h0 : _ = (b.val : Int) := h 0
    have h1 : _ = (v.val : Int) := h 1
    rw [e0] at h0
    rw [e1] at h1
    exact ⟨Fin.ext (by omega), by omega⟩
  · rintro ⟨rfl, e⟩
    refine Fin.forall_fin_two.2 ⟨e0, e1.trans ?_⟩
    show (1 : Int) = (v.val : Int)
    omega

/-- Down the padding column the second scatter leaves zero … -/
theorem v21_pad (ids : IVec S512x256 32) (b : Fin 512) (v : Fin 50257) (hv : v.val = 1) :
    val_main_v21 (F := Ideal) ids (ix2 b v) = (0 : EReal) := by
  unfold val_main_v21
  refine Cert.ScatterSet.scatter_hit _ _ _ _ _ _ (fun j _ => ?_) ⟨ix1 b, (lands2_iff b b v).2 ⟨rfl, hv⟩⟩
  rw [val_main_v20_apply, val_main_cst_5_apply]
  exact Ideal.ofBits_zero_f32

/-- … and elsewhere what the first scatter left. -/
theorem v21_off (ids : IVec S512x256 32) (b : Fin 512) (v : Fin 50257) (hv : v.val ≠ 1) :
    val_main_v21 (F := Ideal) ids (ix2 b v) = val_main_v18 (F := Ideal) ids (ix2 b v) := by
  unfold val_main_v21
  refine Cert.ScatterSet.scatter_miss _ _ _ _ _ (fun j hj => ?_)
  obtain ⟨b', rfl⟩ : ∃ b', j = ix1 b' := ⟨j 0, eq_ix1 j⟩
  exact hv ((lands2_iff b' b v).1 hj).2

/-! ## The product with the weights -/

/-- With no negative id in the table, the reference's last stage is the specified function of the two arguments. -/
theorem ref_eq (ids : IVec S512x256 32) (w : FVec Ideal S50257 .f32) (hnn : ∀ i, 0 ≤ (ids i).toInt) :
    val_main_v24 (F := Ideal) ids w = Cert.Spec.G ids w := by
  funext i
  obtain ⟨b, v, rfl⟩ : ∃ b v, i = ix2 b v := ⟨i 0, i 1, eq_ix2 i⟩
  have ew : idx_main_v22 (idx_main_v23 (ix2 b v)) = ix1 v := by
    funext a; match a with | ⟨0, _⟩ => rfl
  rw [val_main_v24_apply, val_main_v23_apply, val_main_v22_apply, ew]
  show w (ix1 v) * val_main_v21 (F := Ideal) ids (ix2 b v) = _
  by_cases hv : v.val = 1
  · rw [v21_pad ids b v hv, Cert.Spec.G_neg ids w b v (fun h => h.2 hv), mul_zero]
  · rw [v21_off ids b v hv]
    by_cases ho : Cert.Spec.Occurs ids b v
    · rw [v18_hit ids hnn b v ho, Cert.Spec.G_pos ids w b v ho hv, mul_one]
    · rw [v18_miss ids hnn b v ho, Cert.Spec.G_neg ids w b v (fun h => ho h.1), mul_zero]

end Cert.ReferenceIdeal.RefValue

end
-- ==== Proof.lean ====
/-
  A multi-hot encoding of token ids, weighted. Given a 512 × 256 table of token ids and 50257 weights, entry (b, v) of
  the result is the weight of token v when v occurs in row b and v is not the padding token 1, and zero otherwise.

  The reference scatters ones into a zero array at (row, id), scatters zeros down the padding column and multiplies by
  the broadcast weights. The kernel splits each id into its base-256 digits, builds the two one-hot arrays of the
  digits, counts by a batched matrix product how often the digit pair (h, l) occurs in a row — positive exactly when
  token 256·h + l occurs —, and multiplies that indicator with a 256 × 256 table of the weights whose padding-token
  entry the host zeroed. Both are the specified function: an indicator times a weight, with 1·x = x and 0·x = x·0 = 0
  on the extended reals, so nothing is asked of the weights.

  The reference wraps a negative id round to id + 50257, as array indexing does, while the kernel's digits of a negative
  word match no token; the claim is stated for tables with no negative id (ids at or above 50257 are dropped by both
  programs alike).
-/
import proofs.«411009_j1185410973872_3_alg».proof.Defs
import proofs.«411009_j1185410973872_3_alg».proof.Proof.Gen.Kernel
import proofs.«411009_j1185410973872_3_alg».proof.Proof.Gen.Kernel.Skeleton
import proofs.«411009_j1185410973872_3_alg».proof.Proof.Gen.Kernel.Launch
import proofs.«411009_j1185410973872_3_alg».proof.Proof.Gen.Kernel.Points
import proofs.«411009_j1185410973872_3_alg».proof.Proof.Gen.Kernel.Frame
import proofs.«411009_j1185410973872_3_alg».proof.Proof.Gen.KernelIdeal
import proofs.«411009_j1185410973872_3_alg».proof.Proof.Gen.KernelIdeal.Skeleton
import proofs.«411009_j1185410973872_3_alg».proof.Proof.Gen.KernelIdeal.Launch
import proofs.«411009_j1185410973872_3_alg».proof.Proof.Gen.KernelIdeal.Points
import proofs.«411009_j1185410973872_3_alg».proof.Proof.Gen.KernelIdeal.Frame
import proofs.«411009_j1185410973872_3_alg».proof.Proof.Gen.ReferenceIdeal
import proofs.«411009_j1185410973872_3_alg».proof.Proof.Gen.Pre_finite_inputs
import proofs.«411009_j1185410973872_3_alg».proof.Proof.Gen.KernelIdeal.Value
import proofs.«411009_j1185410973872_3_alg».proof.Proof.Gen.ReferenceIdeal.Run
import proofs.«411009_j1185410973872_3_alg».proof.Proof.Gen.ReferenceIdeal.Read
import proofs.«411009_j1185410973872_3_alg».proof.Proof.Spec
import proofs.«411009_j1185410973872_3_alg».proof.Proof.PreFacts
import proofs.«411009_j1185410973872_3_alg».proof.Proof.KernelValue
import proofs.«411009_j1185410973872_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result at the specified function of the (agreeing) arguments: the kernel's by its bands,
    the reference's stage by stage, where the precondition's "no negative id" makes its index wrap the identity. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2]
  exact Cert.ReferenceIdeal.RefValue.ref_eq _ _ (Cert.PreFacts.ids_nonneg _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
